-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.ColumnScale.lean ====
/-
  The function both programs compute. The product of a table `x` of 16384 rows and 4096 columns with the
  diagonal matrix of a weight vector `w` has entry `(r, q)` equal to `x[r, q] · w[q]`: every other
  term of the row-by-column sum meets a zero of the diagonal. So the result is the table with column `q`
  scaled by weight `q`, one multiplication per entry, and it is stated here entry by entry over any
  reading of the floats.
-/
import Idealize.ShloMosaic.Lib.ValueIdx

noncomputable section

namespace Cert.ColumnScale

open Idealize.ShloMosaic Idealize.ShloMosaic.ValueIdx

variable {F : FTy → Type} [FloatOps F]

/-- The table: 16384 rows of 4096 columns. -/
abbrev Table : Shape := ⟨2, ![16384, 4096]⟩

/-- The weights: one per column. -/
abbrev Weights : Shape := ⟨1, ![4096]⟩

/-- The scaled table: entry `(r, q)` is `x[r, q] · w[q]`. -/
def scaled (x : FVec F Table .f32) (w : FVec F Weights .f32) : FVec F Table .f32 :=
  fun i => FloatOps.mulf (x i) (w (ix1 (i 1)))

theorem scaled_apply (x : FVec F Table .f32) (w : FVec F Weights .f32) (i : Table.Idx) :
    scaled x w i = FloatOps.mulf (x i) (w (ix1 (i 1))) := rfl

end Cert.ColumnScale

end
-- ==== Proof.KernelScaled.lean ====
/-
  The kernel's result is the scaled table. The grid has 32 points; point `t` works on rows
  `512·t … 512·t + 511` of the table, all 4096 columns, beside the ONE row the 4096 weights were laid out as
  before the region. Its body multiplies the block of the table by that row repeated down the 512 rows, so the
  block it writes back has entry `(r, q)` equal to `x[512·t + r, q] · w[q]`: block `t` of the scaled table.
  The 32 blocks tile the 16384 rows, so the output array ends as the scaled table itself.
-/
import proofs.«422471_j29703993819978_3_alg».proof.Proof.Gen.KernelIdeal.Value
import proofs.«422471_j29703993819978_3_alg».proof.Proof.ColumnScale
import Idealize.ShloMosaic.Lib.StableHlo.Run

noncomputable section

namespace Cert.KernelIdeal.Scaled

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem offsets_zero : (![0, 0] : Fin 2 → Nat) = fun _ => 0 := funext fun a => by fin_cases a <;> rfl

/-! ## The weights as the region finds them -/

/-- Before the region the 4096 weights are laid out as one row of 4096. -/
theorem weights_row (c : Dev nD) :
    (V m c main_v0 : S1x4096.Idx → F .f32)
      = shapeCast S1x4096 (m ((c : Thread nD τ).loc main_arg1)) shapeCasts_S4096_S1x4096 := by
  dsimp only [V, hostOps0]; after_results; rfl

/-- Entry `(0, q)` of that row is weight `q`. -/
theorem weights_row_apply (c : Dev nD) (k : S1x4096.Idx) :
    (V m c main_v0 : S1x4096.Idx → F .f32) k = m ((c : Thread nD τ).loc main_arg1) (ix1 (k 1)) := by
  rw [weights_row]
  refine shapeCast_apply _ _ k (ix1 (k 1)) ?_
  rw [Shape.rowMajor_val_one, Shape.rowMajor_val_two]
  have h0 : (k 0).val < 1 := (k 0).isLt
  show (k 1).val = (k 0).val * 4096 + (k 1).val
  omega

/-! ## One point's block -/

/-- The body's product at entry `(r, q)` of the block: the table block's entry times entry `(0, q)` of
    the row of weights, whatever the row `r`. -/
theorem body_apply (x0 : Vec F S512x4096 .f32) (x1 : Vec F S1x4096 .f32) (j : S512x4096.Idx) :
    k0_pay1 x0 x1 j = FloatOps.mulf (x0 j) (x1 (ix2 (0 : Fin 1) (j 1))) := by
  have h := Value.canon2_eq x0 x1 j
  rw [View.canon_unit_zero offsets_zero] at h
  rw [h]
  show FloatOps.mulf (x0 (Value.ix2_0 j)) (x1 (Value.ix2_1 j)) = _
  have e0 : Value.ix2_0 j = j := funext fun a => match a with | ⟨0, _⟩ => rfl | ⟨1, _⟩ => rfl
  have e1 : Value.ix2_1 j = ix2 (0 : Fin 1) (j 1) := funext fun a => match a with | ⟨0, _⟩ => rfl | ⟨1, _⟩ => rfl
  rw [e0, e1]
  rfl

/-- The printed index maps over the 32 points: the table's block and the output's block are block `t` of the
    rows and the one block of the columns; the weights' block is always the one row. -/
theorem index_facts : ∀ t : Fin cfg0.N,
    win0_0.index t (0 : Fin 2) = win0_2.index t (0 : Fin 2)
    ∧ win0_0.index t (1 : Fin 2) = 0
    ∧ win0_2.index t (1 : Fin 2) = 0
    ∧ win0_1.index t (0 : Fin 2) = 0
    ∧ win0_1.index t (1 : Fin 2) = 0
    ∧ win0_2.index t (0 : Fin 2) = t.val :=
  (by decide +kernel : ∀ t : Fin grid0.N, _)

/-- What point `t` writes back is block `t` of the scaled table. -/
theorem flushed_eq (c : Dev nD) (t : Fin cfg0.N) :
    (dats m 0 c).flushed 2 t = ((cfg0.win 2).blk t).view.read (Elt F)
      (Cert.ColumnScale.scaled (V m c main_arg0) (m ((c : Thread nD τ).loc main_arg1))) := by
  rw [Value.flushed2]
  unfold out0_2
  rw [View.canon_unit_zero offsets_zero]
  simp only [View.ld_unit_zero (S := S512x4096) offsets_zero, View.ld_unit_zero (S := S1x4096) offsets_zero]
  obtain ⟨e0, e1, e2, e3, e4, e5⟩ := index_facts t
  funext j
  refine (body_apply (iblk m c 0 t) (iblk m c 1 t) j).trans ?_
  show FloatOps.mulf (V m c main_arg0 (((cfg0.win 0).blk t).view.emb j))
      ((V m c main_v0 : S1x4096.Idx → F .f32) (((cfg0.win 1).blk t).view.emb (ix2 (0 : Fin 1) (j 1))))
    = FloatOps.mulf (V m c main_arg0 (((cfg0.win 2).blk t).view.emb j))
      (m ((c : Thread nD τ).loc main_arg1) (ix1 ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : (((cfg0.win 1).blk t).view.emb (ix2 (0 : Fin 1) (j 1))) 1 = (((cfg0.win 2).blk t).view.emb j) 1 := by
    apply Fin.ext
    show win0_1.index t (1 : Fin 2) * 4096 + 1 * (j 1).val = win0_2.index t (1 : Fin 2) * 4096 + 1 * (j 1).val
    omega
  rw [weights_row_apply, h0, h1]

/-! ## The blocks tile the array -/

/-- An entry of the array is in point `t`'s block iff each coordinate is in the block's range on its axis. -/
theorem mem_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- Row `r` of the array lies in the block of point `r / 512`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : (i 0).val / 512 < cfg0.N := by rw [show cfg0.N = 32 from N_0]; omega
  obtain ⟨-, -, e2, -, -, e5⟩ := index_facts ⟨(i 0).val / 512, hN⟩
  refine ⟨⟨(i 0).val / 512, hN⟩, flush0_2 _, ?_⟩
  rw [mem_block]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e5]; show (i 0).val / 512 * 512 ≤ (i 0).val ∧ (i 0).val < (i 0).val / 512 * 512 + 512; omega
  | ⟨1, _⟩ =>
    show win0_2.index ⟨(i 0).val / 512, hN⟩ (1 : Fin 2) * 4096 ≤ (i 1).val ∧ (i 1).val < win0_2.index ⟨(i 0).val / 512, hN⟩ (1 : Fin 2) * 4096 + 4096
    omega

/-! ## The array after the run -/

/-- The output array ends as the scaled table of the two argument arrays. -/
theorem final (c : Dev nD) :
    (dats m 0 c).arrAt 2 cfg0.N
      = Cert.ColumnScale.scaled (m ((c : Thread nD τ).loc main_arg0)) (m ((c : Thread nD τ).loc main_arg1)) := by
  rw [← V_main_arg0 m c]
  exact (dats m 0 c).arrAt_eq_of_cover 2 _ (fun t _ => flushed_eq m c t) covered

/-- Every weakly fair execution of the kernel program ends with its result array at the scaled table of its
    arguments, and the arguments as they were. -/
theorem run : θ_run defs (onTc (τ := τ) (main (F := F))) ⟨m, fun _ => 0, ρ⟩ fun r => ∀ c : Dev nD,
      r.2.mem ((c : Thread nD τ).loc main_v1)
        = Cert.ColumnScale.scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Scaled

end
-- ==== Proof.ReferenceScaled.lean ====
/-
  The reference program is the scaled table. It widens the weights twice — first to one row of 4096
  entries, then to all 16384 rows — and multiplies entry by entry; entry `(r, q)` of the widened weights is
  weight `q` whatever the row, so entry `(r, q)` of the product is `x[r, q] · w[q]`.
-/
import proofs.«422471_j29703993819978_3_alg».proof.Proof.Gen.ReferenceIdeal.Read
import proofs.«422471_j29703993819978_3_alg».proof.Proof.ColumnScale

noncomputable section

namespace Cert.ReferenceIdeal.Scaled

open Cert.ReferenceIdeal Cert.ReferenceIdeal.Read Idealize.ShloMosaic Idealize.ShloMosaic.ValueIdx

variable {F : FTy → Type} [FloatOps F]

/-- Through the two widenings, entry `(r, q)` comes from weight `q`. -/
theorem weight_index (i : S16384x4096.Idx) : idx_main_v0 (idx_main_v1 i) = ix1 (i 1) :=
  funext fun a => match a with | ⟨0, _⟩ => rfl

/-- The reference's product, read entry by entry, is the scaled table. -/
theorem product_eq (x : FVec F S16384x4096 .f32) (w : FVec F S4096 .f32) :
    val_main_v2 (F := F) x w = Cert.ColumnScale.scaled x w := by
  funext i
  rw [val_main_v2_apply, val_main_v1_apply, val_main_v0_apply, weight_index]
  rfl

end Cert.ReferenceIdeal.Scaled

end
-- ==== Proof.lean ====
/-
  A table `x` of 16384 rows and 4096 columns times the diagonal matrix of a weight vector `w`: entry
  `(r, q)` of the product is `x[r, q] · w[q]`, the table with each column scaled by its weight
  (Proof/ColumnScale.lean). The kernel computes it 512 rows at a time, each block of rows multiplied by the
  weights laid out as one row and repeated down the block, and its 32 blocks tile the table
  (Proof/KernelScaled.lean); the reference widens the weights to the whole table and multiplies once
  (Proof/ReferenceScaled.lean). Both are the same single multiplication at every entry, so they agree over the
  extended reals with no condition on the entries: the finiteness of the inputs is never used. Neither program
  writes its arguments, and the idealized kernel is the kernel's own text read over the extended reals.
-/
import proofs.«422471_j29703993819978_3_alg».proof.Defs
import proofs.«422471_j29703993819978_3_alg».proof.Proof.Gen.Kernel
import proofs.«422471_j29703993819978_3_alg».proof.Proof.Gen.Kernel.Skeleton
import proofs.«422471_j29703993819978_3_alg».proof.Proof.Gen.Kernel.Launch
import proofs.«422471_j29703993819978_3_alg».proof.Proof.Gen.Kernel.Points
import proofs.«422471_j29703993819978_3_alg».proof.Proof.Gen.Kernel.Frame
import proofs.«422471_j29703993819978_3_alg».proof.Proof.Gen.KernelIdeal
import proofs.«422471_j29703993819978_3_alg».proof.Proof.Gen.KernelIdeal.Skeleton
import proofs.«422471_j29703993819978_3_alg».proof.Proof.Gen.KernelIdeal.Launch
import proofs.«422471_j29703993819978_3_alg».proof.Proof.Gen.KernelIdeal.Points
import proofs.«422471_j29703993819978_3_alg».proof.Proof.Gen.KernelIdeal.Frame
import proofs.«422471_j29703993819978_3_alg».proof.Proof.Gen.ReferenceIdeal
import proofs.«422471_j29703993819978_3_alg».proof.Proof.Gen.Pre_finite_inputs
import proofs.«422471_j29703993819978_3_alg».proof.Proof.Gen.KernelIdeal.Value
import proofs.«422471_j29703993819978_3_alg».proof.Proof.Gen.ReferenceIdeal.Run
import proofs.«422471_j29703993819978_3_alg».proof.Proof.Gen.ReferenceIdeal.Read
import proofs.«422471_j29703993819978_3_alg».proof.Proof.ColumnScale
import proofs.«422471_j29703993819978_3_alg».proof.Proof.KernelScaled
import proofs.«422471_j29703993819978_3_alg».proof.Proof.ReferenceScaled
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals both programs end with the scaled table of the arguments they share: the kernel's
    32 blocks of rows put together, and the reference's one product read entry by entry. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.Scaled.product_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
